-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S2x2048x2048 .f32) (main_arg1 : FVec F S8192x2048 .f32) (main_arg2 : FVec F S2048x8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S4096x2048 : Shape := ⟨2, ![4096, 2048]⟩
abbrev S1024x2048 : Shape := ⟨2, ![1024, 2048]⟩
abbrev S512x2048 : Shape := ⟨2, ![512, 2048]⟩
abbrev S2048x512 : Shape := ⟨2, ![2048, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S2048x8192, .f32⟩
  | .hbm, ⟨3, _⟩ => ⟨S4096x2048, .f32⟩
  | .hbm, ⟨4, _⟩ => ⟨S4096x2048, .f32⟩
  | .hbm, ⟨5, _⟩ => ⟨S2x2048x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S2048x512, .f32⟩
  | .local _ .vmem, ⟨5, _⟩ => ⟨S2048x512, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c0_i32_11 : BitVec 32 := 0#32
  let v24 : BitVec 1 := Scalar.cmpi .eq arg1 c0_i32_11
  let v25 : BitVec 32 := Scalar.extui v24
  let c0_i32_12 : BitVec 32 := 0#32
  let v26 : BitVec 1 := Scalar.cmpi .ne v25 c0_i32_12
  v26

def k0_cond3 (i : grid0.Coords) : BitVec 1 :=
  let arg1 : BitVec 32 := BitVec.ofNat 32 (i 1).val
  let c0_i32_13 : BitVec 32 := 0#32
  let v27 : BitVec 1 := Scalar.cmpi .ne arg1 c0_i32_13
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2x2048x2048_S4096x2048 : S2x2048x2048.ShapeCasts S4096x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2048x512_S2048x512_0_0 : ∀ a, (![0, 0] : Fin 2 → Nat) a + S2048x512.size a ≤ S2048x512.size a
  h_S2048x512 : 0 < S2048x512.numel
  shapeCasts_S4096x2048_S2x2048x2048 : S4096x2048.ShapeCasts S2x2048x2048
  dot_S1024x2048_S512x2048_S1024x512_1_1_0_0_n_n_wf : DotDims.WF S1024x2048 S512x2048 S1024x512 [1] [1] [0] [0] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x8192.size a
  hwx0_2 : ∀ i : grid0.Coords, EltTy.bits .f32 = 32 ∨ (Rect.block (s := S2048x8192) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x2048.size a
  hwx0_3 : ∀ i : grid0.Coords, EltTy.bits .f32 = 32 ∨ (Rect.block (s := S4096x2048) S1024x2048.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S2x2048x8192 : Shape := ⟨3, ![2, 2048, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S2048x8192, .f32⟩
  | .hbm, ⟨3, _⟩ => ⟨S2x2048x8192, .f32⟩
  | .hbm, ⟨4, _⟩ => ⟨S2x2048x8192, .f32⟩
  | .hbm, ⟨5, _⟩ => ⟨S2x2048x8192, .f32⟩
  | .hbm, ⟨6, _⟩ => ⟨S_, .f32⟩
  | .hbm, ⟨7, _⟩ => ⟨S2x2048x8192, .f32⟩
  | .hbm, ⟨8, _⟩ => ⟨S2x2048x8192, .f32⟩
  | .hbm, ⟨9, _⟩ => ⟨S2x2048x8192, .f32⟩
  | .hbm, ⟨10, _⟩ => ⟨S_, .f32⟩
  | .hbm, ⟨11, _⟩ => ⟨S2x2048x8192, .f32⟩
  | .hbm, ⟨12, _⟩ => ⟨S2x2048x8192, .f32⟩
  | .hbm, ⟨13, _⟩ => ⟨S2x2048x8192, .f32⟩
  | .hbm, ⟨14, _⟩ => ⟨S_, .f32⟩
  | .hbm, ⟨15, _⟩ => ⟨S2x2048x8192, .f32⟩
  | .hbm, ⟨16, _⟩ => ⟨S2x2048x8192, .f32⟩
  | .hbm, ⟨17, _⟩ => ⟨S_, .f32⟩
  | .hbm, ⟨18, _⟩ => ⟨S2x2048x8192, .f32⟩
  | .hbm, ⟨19, _⟩ => ⟨S2x2048x8192, .f32⟩
  | .hbm, ⟨20, _⟩ => ⟨S2x2048x8192, .f32⟩
  | .hbm, ⟨21, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x2048x8192 : S_.BroadcastsInDim S2x2048x8192 (![] : Fin 0 → Fin S2x2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.KernelRuns.lean ====
/-
  The kernel body's two whole-body runs, at any float instance.

  The grid is 4 row blocks by 16 hidden blocks, the hidden block `j` moving fastest. At `j = 0` the body casts the row
  block of `x` into its scratch, forms the block product and STORES it into the output's staging buffer; at `j ≠ 0` it
  reads the scratch the row's first point filled, forms the block product and ADDS it to what the buffer holds. Each run
  is stated on any whole staging memrefs: the inputs at given contents, and what the run leaves in the output's buffer
  (and, at `j = 0`, in the scratch) as the list of pieces its stores wrote, found by running the body.
-/
import proofs.«128626_g49581102465454_cont_8to1_c_3_2_alg».proof.Proof.Gen.Kernel.Frame
import proofs.«128626_g49581102465454_cont_8to1_c_3_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three branch conditions, decided over the 64 points -/

/-- "This is the row's first hidden block" as the body computes it before filling the scratch. -/
abbrev condFill (i : grid0.Coords) : Prop :=
  (Scalar.cmpi .ne (Scalar.extui (Scalar.cmpi .eq (BitVec.ofNat 32 (i 1).val) 0#32)) 0#32) = 1#1
/-- The same test before the output's buffer is overwritten. -/
abbrev condSet (i : grid0.Coords) : Prop := k0_cond2 i = 1#1
/-- "This is a later hidden block", before the output's buffer is added to. -/
abbrev condAdd (i : grid0.Coords) : Prop := k0_cond3 i = 1#1

theorem hcondFill : ∀ t : Fin cfg0.N, condFill (grid0.coords t) ↔ t.val % 16 = 0 :=
  (by decide +kernel : ∀ t : Fin grid0.N, condFill (grid0.coords t) ↔ t.val % 16 = 0)
theorem hcondSet : ∀ t : Fin cfg0.N, condSet (grid0.coords t) ↔ t.val % 16 = 0 :=
  (by decide +kernel : ∀ t : Fin grid0.N, condSet (grid0.coords t) ↔ t.val % 16 = 0)
theorem hcondAdd : ∀ t : Fin cfg0.N, condAdd (grid0.coords t) ↔ ¬ t.val % 16 = 0 :=
  (by decide +kernel : ∀ t : Fin grid0.N, condAdd (grid0.coords t) ↔ ¬ t.val % 16 = 0)

/-! ## No window is ever idle: an input never is, and the output is stored into at every point (one of the two
    stores applies whatever `j` is) -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- The output is live at every coordinate vector: the two conditions are complementary tests of `j`. -/
theorem live3_all : ∀ i : grid0.Coords, cfg0.idle 3 i = false := by
  intro i
  have key : ∀ v : Fin 16,
      (!(Scalar.cmpi .ne (Scalar.extui (Scalar.cmpi .eq (BitVec.ofNat 32 v.val) 0#32)) 0#32 == 1#1)
        && !(Scalar.cmpi .ne (Scalar.extui (Scalar.cmpi .ne (BitVec.ofNat 32 v.val) 0#32)) 0#32 == 1#1)) = false := by
    decide +kernel
  exact key (i 1)

/-! ## The memrefs the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)
/-- The scratch: a whole scoped buffer of the kernel's own. -/
abbrev scM : Memref sig .tc .vmem S1024x2048 .bf16 := Memref.whole cc0_scratch0
/-- A view through which the output buffer's contents are stated (the choice of staging buffer does not matter). -/
abbrev VO : View sig .tc .vmem S1024x2048 .f32 := (Memref.whole cc0_stg3_0 : Memref sig .tc .vmem S1024x2048 .f32).view
/-- The scratch as a view. -/
abbrev VS : View sig .tc .vmem S1024x2048 .bf16 := scM.view

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The runs -/

set_option maxHeartbeats 4000000 in
/-- The body at `j = 0`: the inputs' buffers at `x0`, `x1`, `x2`, the output's buffer and the scratch at anything; it
    ends with the inputs as they were, the output's buffer with the pieces `L3` written and the scratch with `LS`. -/
noncomputable def runFirst (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S2048x512 .f32) (harg4 : arg4.IsWhole) (arg5 : Memref sig .tc .vmem S1024x2048 .f32) (harg5 : arg5.IsWhole)
    (arg6 : Memref sig .tc .vmem S1024x2048 .bf16) (harg6 : arg6.IsWhole)
    (hF : condFill i) (hS : condSet i) (hA : ¬condAdd i)
    (x0 : Vec F S1024x2048 .f32) (x1 : Vec F S512x2048 .f32) (x2 : Vec F S2048x512 .f32) :
    Σ' (L3 : List (View.Piece (Elt F) S1024x2048 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__ffn_block i arg2 harg2 arg3 harg3 arg4 harg4 arg5 harg5 arg6 harg6) K } := by
  refine ⟨?_, ?_, fun E K => ?run⟩
  case run =>
    simp only [cc0__ffn_block_eq_skeleton]; unfold cc0__ffn_block_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hF | exact hS | exact hA)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 4000000 in
/-- The body at `j ≠ 0`: the inputs' buffers at `x0`, `x1`, `x2`, the output's buffer at `xo` and the scratch at `xs`
    (what the point before left in them); it ends with the inputs and the scratch as they were and the output's buffer
    with the pieces `L3` written. -/
noncomputable def runLater (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S2048x512 .f32) (harg4 : arg4.IsWhole) (arg5 : Memref sig .tc .vmem S1024x2048 .f32) (harg5 : arg5.IsWhole)
    (arg6 : Memref sig .tc .vmem S1024x2048 .bf16) (harg6 : arg6.IsWhole)
    (hF : ¬condFill i) (hS : ¬condSet i) (hA : condAdd i)
    (x0 : Vec F S1024x2048 .f32) (x1 : Vec F S512x2048 .f32) (x2 : Vec F S2048x512 .f32)
    (xo : Vec F S1024x2048 .f32) (xs : Vec F S1024x2048 .bf16) :
    { L3 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs) -∗ K ⟨⟩))
          ⊢ wp frame (wpE (defs₀ (F := F)) Variants.none c none) E (cc0__ffn_block i arg2 harg2 arg3 harg3 arg4 harg4 arg5 harg5 arg6 harg6) K } := by
  refine ⟨?_, fun E K => ?run⟩
  case run =>
    simp only [cc0__ffn_block_eq_skeleton]; unfold cc0__ffn_block_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hF | exact hS | exact hA)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.Kernel.Hand

end
-- ==== Proof.KernelFrame.lean ====
/-
  The frame of the kernel's program, at any float instance: every weakly fair execution terminates, faults nowhere
  and leaves the three argument arrays as launched.

  What the output's staging buffer and the scratch hold after each of the 64 points is defined by recursion on the
  point: at a row's first hidden block (`j = 0`) what that case's run leaves from the point's input blocks; at a later
  one what the later case's run leaves from the point's input blocks and what the point before left. The region's
  invariant carries the scratch at those contents from point to point, and the output's buffer is found at the point
  before's contents because it is written back only after a row's last hidden block.
-/
import proofs.«128626_g49581102465454_cont_8to1_c_3_2_alg».proof.Proof.KernelRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves, by case -/

/-- What the `j = 0` run's pieces leave in the output's buffer, read back. -/
def firstOut (c : Dev nD) (t : Fin cfg0.N) (h : t.val % 16 = 0)
    (x0 : Vec F S1024x2048 .f32) (x1 : Vec F S512x2048 .f32) (x2 : Vec F S2048x512 .f32) : Vec F S1024x2048 .f32 :=
  VO.read (Elt F) (VO.writes (Elt F) VO.junk
    (runFirst c (grid0.coords t) (ms0 t) (hs0 t) (ms1 t) (hs1 t) (ms2 t) (hs2 t) (ms3 t) (hs3 t) scM (Memref.isWhole_whole _)
      ((hcondFill t).mpr h) ((hcondSet t).mpr h) (fun hh => (hcondAdd t).mp hh h) x0 x1 x2).1)

/-- What the `j = 0` run's pieces leave in the scratch, read back. -/
def firstScr (c : Dev nD) (t : Fin cfg0.N) (h : t.val % 16 = 0)
    (x0 : Vec F S1024x2048 .f32) (x1 : Vec F S512x2048 .f32) (x2 : Vec F S2048x512 .f32) : Vec F S1024x2048 .bf16 :=
  VS.read (Elt F) (VS.writes (Elt F) VS.junk
    (runFirst c (grid0.coords t) (ms0 t) (hs0 t) (ms1 t) (hs1 t) (ms2 t) (hs2 t) (ms3 t) (hs3 t) scM (Memref.isWhole_whole _)
      ((hcondFill t).mpr h) ((hcondSet t).mpr h) (fun hh => (hcondAdd t).mp hh h) x0 x1 x2).2.1)

/-- What the `j ≠ 0` run's pieces leave in the output's buffer, read back. -/
def laterOut (c : Dev nD) (t : Fin cfg0.N) (h : ¬t.val % 16 = 0)
    (x0 : Vec F S1024x2048 .f32) (x1 : Vec F S512x2048 .f32) (x2 : Vec F S2048x512 .f32)
    (xo : Vec F S1024x2048 .f32) (xs : Vec F S1024x2048 .bf16) : Vec F S1024x2048 .f32 :=
  VO.read (Elt F) (VO.writes (Elt F) VO.junk
    (runLater c (grid0.coords t) (ms0 t) (hs0 t) (ms1 t) (hs1 t) (ms2 t) (hs2 t) (ms3 t) (hs3 t) scM (Memref.isWhole_whole _)
      (fun hh => h ((hcondFill t).mp hh)) (fun hh => h ((hcondSet t).mp hh)) ((hcondAdd t).mpr h) x0 x1 x2 xo xs).1)

/-- The `j = 0` run's pieces for the output's buffer tile it. -/
theorem firstOut_cover (c : Dev nD) (t : Fin cfg0.N) (h : t.val % 16 = 0)
    (x0 : Vec F S1024x2048 .f32) (x1 : Vec F S512x2048 .f32) (x2 : Vec F S2048x512 .f32) (y : S1024x2048.Idx) :
    ∃ pc ∈ (runFirst c (grid0.coords t) (ms0 t) (hs0 t) (ms1 t) (hs1 t) (ms2 t) (hs2 t) (ms3 t) (hs3 t) scM (Memref.isWhole_whole _)
      ((hcondFill t).mpr h) ((hcondSet t).mpr h) (fun hh => (hcondAdd t).mp hh h) x0 x1 x2).1, y ∈ pc.1.set :=
  View.cover_of_tiledL _ S1024x2048.size (by sl_kernel_rfl) y

/-- The `j = 0` run's pieces for the scratch tile it. -/
theorem firstScr_cover (c : Dev nD) (t : Fin cfg0.N) (h : t.val % 16 = 0)
    (x0 : Vec F S1024x2048 .f32) (x1 : Vec F S512x2048 .f32) (x2 : Vec F S2048x512 .f32) (y : S1024x2048.Idx) :
    ∃ pc ∈ (runFirst c (grid0.coords t) (ms0 t) (hs0 t) (ms1 t) (hs1 t) (ms2 t) (hs2 t) (ms3 t) (hs3 t) scM (Memref.isWhole_whole _)
      ((hcondFill t).mpr h) ((hcondSet t).mpr h) (fun hh => (hcondAdd t).mp hh h) x0 x1 x2).2.1, y ∈ pc.1.set :=
  View.cover_of_tiledL _ S1024x2048.size (by sl_kernel_rfl) y

/-- The `j ≠ 0` run's pieces for the output's buffer tile it. -/
theorem laterOut_cover (c : Dev nD) (t : Fin cfg0.N) (h : ¬t.val % 16 = 0)
    (x0 : Vec F S1024x2048 .f32) (x1 : Vec F S512x2048 .f32) (x2 : Vec F S2048x512 .f32)
    (xo : Vec F S1024x2048 .f32) (xs : Vec F S1024x2048 .bf16) (y : S1024x2048.Idx) :
    ∃ pc ∈ (runLater c (grid0.coords t) (ms0 t) (hs0 t) (ms1 t) (hs1 t) (ms2 t) (hs2 t) (ms3 t) (hs3 t) scM (Memref.isWhole_whole _)
      (fun hh => h ((hcondFill t).mp hh)) (fun hh => h ((hcondSet t).mp hh)) ((hcondAdd t).mpr h) x0 x1 x2 xo xs).1, y ∈ pc.1.set :=
  View.cover_of_tiledL _ S1024x2048.size (by sl_kernel_rfl) y

/-! ## What the output's buffer and the scratch hold after each point -/

/-- The pair (output's buffer, scratch) after the body at position `n`. -/
def heldAt (c : Dev nD) : (n : ℕ) → n < cfg0.N → Vec F S1024x2048 .f32 × Vec F S1024x2048 .bf16
  | 0, hn => (firstOut c ⟨0, hn⟩ (Nat.zero_mod _) (iblk m c 0 ⟨0, hn⟩) (iblk m c 1 ⟨0, hn⟩) (iblk m c 2 ⟨0, hn⟩),
              firstScr c ⟨0, hn⟩ (Nat.zero_mod _) (iblk m c 0 ⟨0, hn⟩) (iblk m c 1 ⟨0, hn⟩) (iblk m c 2 ⟨0, hn⟩))
  | n + 1, hn =>
    if h : (n + 1) % 16 = 0 then
      (firstOut c ⟨n + 1, hn⟩ h (iblk m c 0 ⟨n + 1, hn⟩) (iblk m c 1 ⟨n + 1, hn⟩) (iblk m c 2 ⟨n + 1, hn⟩),
       firstScr c ⟨n + 1, hn⟩ h (iblk m c 0 ⟨n + 1, hn⟩) (iblk m c 1 ⟨n + 1, hn⟩) (iblk m c 2 ⟨n + 1, hn⟩))
    else
      (laterOut c ⟨n + 1, hn⟩ h (iblk m c 0 ⟨n + 1, hn⟩) (iblk m c 1 ⟨n + 1, hn⟩) (iblk m c 2 ⟨n + 1, hn⟩)
          (heldAt c n (Nat.lt_of_succ_lt hn)).1 (heldAt c n (Nat.lt_of_succ_lt hn)).2,
       (heldAt c n (Nat.lt_of_succ_lt hn)).2)

/-- At a row's first hidden block. -/
theorem heldAt_first (c : Dev nD) (t : Fin cfg0.N) (h : t.val % 16 = 0) :
    heldAt m c t.val t.isLt = (firstOut c t h (iblk m c 0 t) (iblk m c 1 t) (iblk m c 2 t),
                               firstScr c t h (iblk m c 0 t) (iblk m c 1 t) (iblk m c 2 t)) := by
  obtain ⟨n, hn⟩ := t
  cases n with
  | zero => exact rfl
  | succ n => exact (dif_pos h).trans rfl

/-- At a later hidden block: over what the point before left. -/
theorem heldAt_later (c : Dev nD) (t : Fin cfg0.N) (h : ¬t.val % 16 = 0) :
    heldAt m c t.val t.isLt
      = (laterOut c t h (iblk m c 0 t) (iblk m c 1 t) (iblk m c 2 t)
          (heldAt m c (t.val - 1) (Nat.lt_of_le_of_lt (Nat.sub_le _ _) t.isLt)).1
          (heldAt m c (t.val - 1) (Nat.lt_of_le_of_lt (Nat.sub_le _ _) t.isLt)).2,
         (heldAt m c (t.val - 1) (Nat.lt_of_le_of_lt (Nat.sub_le _ _) t.isLt)).2) := by
  obtain ⟨n, hn⟩ := t
  cases n with
  | zero => exact absurd (Nat.zero_mod _) h
  | succ n => exact (dif_neg h).trans rfl

/-! ## The invariant -/

/-- Before position `n`: at the start the region's own invariant (the scratch at anything); afterwards the scratch
    at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((heldAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((heldAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((heldAt m c (n - 1) (by omega)).2)) ∗ (∃ r, prngReg c r)) := by
  cases n with
  | zero => exact absurd rfl hz
  | succ n => rfl

/-! ## The proof data -/

/-- The arrays as the region finds them; after the body each input's buffer at its block and the output's at
    `heldAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (heldAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (heldAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a later hidden block the output's buffer holds what the body left at the point before: the point is not the
    first, the buffer was not written back between (that happens only after `j = 15`), and the window is live and uncut. -/
theorem before3_later (c : Dev nD) (t : Fin cfg0.N) (h : ¬t.val % 16 = 0) (d) :
    (dats m 0 c).before 3 t d = (heldAt m c (t.val - 1) (Nat.lt_of_le_of_lt (Nat.sub_le _ _) t.isLt)).1 := by
  have hN : t.val < 64 := lt_of_lt_of_eq t.isLt (show cfg0.N = 64 from N_0)
  rw [Dat.before_out_kept _ 3 rfl t (by intro h0; rw [h0] at h; exact h (Nat.zero_mod _))
    (Bool.eq_false_iff.mpr fun hf => by have := (flush0_3 _).mp hf; dsimp only at this; omega)
    live3_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; `j` decides the case. At `j = 0` the scratch and
    the output's buffer are handed over at whatever they hold; at `j ≠ 0` at what the point before left. The scratch
    goes back into the invariant at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h : t.val % 16 = 0
  · rw [heldAt_first m c t h]
    unfold firstOut firstScr; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((hcondFill t).mpr h) ((hcondSet t).mpr h) (fun hh => (hcondAdd t).mp hh h)
        (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (firstScr_cover c t h _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (firstOut_cover c t h _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((hcondFill t).mpr h) ((hcondSet t).mpr h) (fun hh => (hcondAdd t).mp hh h)
        (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (firstScr_cover c t h _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (firstOut_cover c t h _ _ _)
  · have hz : t.val ≠ 0 := fun h0 => h (by rw [h0])
    simp only [before3_later m c t h]
    rw [heldAt_later m c t h]
    unfold laterOut; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runLater c (grid0.coords t) _ _ _ _ _ _ _ _ _ _ (fun hh => h ((hcondFill t).mp hh)) (fun hh => h ((hcondSet t).mp hh)) ((hcondAdd t).mpr h)
      (iblk m c 0 t) (iblk m c 1 t) (iblk m c 2 t) _ _).2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (laterOut_cover c t h _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's own back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates; every final state has each array of the pipeline at what the
    library computes from the proof data and every other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdealRuns.lean ====
/-
  The kernel body's two whole-body runs, at any float instance.

  The grid is 4 row blocks by 16 hidden blocks, the hidden block `j` moving fastest. At `j = 0` the body casts the row
  block of `x` into its scratch, forms the block product and STORES it into the output's staging buffer; at `j ≠ 0` it
  reads the scratch the row's first point filled, forms the block product and ADDS it to what the buffer holds. Each run
  is stated on any whole staging memrefs: the inputs at given contents, and what the run leaves in the output's buffer
  (and, at `j = 0`, in the scratch) as the list of pieces its stores wrote, found by running the body.
-/
import proofs.«128626_g49581102465454_cont_8to1_c_3_2_alg».proof.Proof.Gen.KernelIdeal.Frame
import proofs.«128626_g49581102465454_cont_8to1_c_3_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three branch conditions, decided over the 64 points -/

/-- "This is the row's first hidden block" as the body computes it before filling the scratch. -/
abbrev condFill (i : grid0.Coords) : Prop :=
  (Scalar.cmpi .ne (Scalar.extui (Scalar.cmpi .eq (BitVec.ofNat 32 (i 1).val) 0#32)) 0#32) = 1#1
/-- The same test before the output's buffer is overwritten. -/
abbrev condSet (i : grid0.Coords) : Prop := k0_cond2 i = 1#1
/-- "This is a later hidden block", before the output's buffer is added to. -/
abbrev condAdd (i : grid0.Coords) : Prop := k0_cond3 i = 1#1

theorem hcondFill : ∀ t : Fin cfg0.N, condFill (grid0.coords t) ↔ t.val % 16 = 0 :=
  (by decide +kernel : ∀ t : Fin grid0.N, condFill (grid0.coords t) ↔ t.val % 16 = 0)
theorem hcondSet : ∀ t : Fin cfg0.N, condSet (grid0.coords t) ↔ t.val % 16 = 0 :=
  (by decide +kernel : ∀ t : Fin grid0.N, condSet (grid0.coords t) ↔ t.val % 16 = 0)
theorem hcondAdd : ∀ t : Fin cfg0.N, condAdd (grid0.coords t) ↔ ¬ t.val % 16 = 0 :=
  (by decide +kernel : ∀ t : Fin grid0.N, condAdd (grid0.coords t) ↔ ¬ t.val % 16 = 0)

/-! ## No window is ever idle: an input never is, and the output is stored into at every point (one of the two
    stores applies whatever `j` is) -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- The output is live at every coordinate vector: the two conditions are complementary tests of `j`. -/
theorem live3_all : ∀ i : grid0.Coords, cfg0.idle 3 i = false := by
  intro i
  have key : ∀ v : Fin 16,
      (!(Scalar.cmpi .ne (Scalar.extui (Scalar.cmpi .eq (BitVec.ofNat 32 v.val) 0#32)) 0#32 == 1#1)
        && !(Scalar.cmpi .ne (Scalar.extui (Scalar.cmpi .ne (BitVec.ofNat 32 v.val) 0#32)) 0#32 == 1#1)) = false := by
    decide +kernel
  exact key (i 1)

/-! ## The memrefs the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)
/-- The scratch: a whole scoped buffer of the kernel's own. -/
abbrev scM : Memref sig .tc .vmem S1024x2048 .bf16 := Memref.whole cc0_scratch0
/-- A view through which the output buffer's contents are stated (the choice of staging buffer does not matter). -/
abbrev VO : View sig .tc .vmem S1024x2048 .f32 := (Memref.whole cc0_stg3_0 : Memref sig .tc .vmem S1024x2048 .f32).view
/-- The scratch as a view. -/
abbrev VS : View sig .tc .vmem S1024x2048 .bf16 := scM.view

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The runs -/

set_option maxHeartbeats 4000000 in
/-- The body at `j = 0`: the inputs' buffers at `x0`, `x1`, `x2`, the output's buffer and the scratch at anything; it
    ends with the inputs as they were, the output's buffer with the pieces `L3` written and the scratch with `LS`. -/
noncomputable def runFirst (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S2048x512 .f32) (harg4 : arg4.IsWhole) (arg5 : Memref sig .tc .vmem S1024x2048 .f32) (harg5 : arg5.IsWhole)
    (arg6 : Memref sig .tc .vmem S1024x2048 .bf16) (harg6 : arg6.IsWhole)
    (hF : condFill i) (hS : condSet i) (hA : ¬condAdd i)
    (x0 : Vec F S1024x2048 .f32) (x1 : Vec F S512x2048 .f32) (x2 : Vec F S2048x512 .f32) :
    Σ' (L3 : List (View.Piece (Elt F) S1024x2048 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__ffn_block i arg2 harg2 arg3 harg3 arg4 harg4 arg5 harg5 arg6 harg6) K } := by
  refine ⟨?_, ?_, fun E K => ?run⟩
  case run =>
    simp only [cc0__ffn_block_eq_skeleton]; unfold cc0__ffn_block_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hF | exact hS | exact hA)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 4000000 in
/-- The body at `j ≠ 0`: the inputs' buffers at `x0`, `x1`, `x2`, the output's buffer at `xo` and the scratch at `xs`
    (what the point before left in them); it ends with the inputs and the scratch as they were and the output's buffer
    with the pieces `L3` written. -/
noncomputable def runLater (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S2048x512 .f32) (harg4 : arg4.IsWhole) (arg5 : Memref sig .tc .vmem S1024x2048 .f32) (harg5 : arg5.IsWhole)
    (arg6 : Memref sig .tc .vmem S1024x2048 .bf16) (harg6 : arg6.IsWhole)
    (hF : ¬condFill i) (hS : ¬condSet i) (hA : condAdd i)
    (x0 : Vec F S1024x2048 .f32) (x1 : Vec F S512x2048 .f32) (x2 : Vec F S2048x512 .f32)
    (xo : Vec F S1024x2048 .f32) (xs : Vec F S1024x2048 .bf16) :
    { L3 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs) -∗ K ⟨⟩))
          ⊢ wp frame (wpE (defs₀ (F := F)) Variants.none c none) E (cc0__ffn_block i arg2 harg2 arg3 harg3 arg4 harg4 arg5 harg5 arg6 harg6) K } := by
  refine ⟨?_, fun E K => ?run⟩
  case run =>
    simp only [cc0__ffn_block_eq_skeleton]; unfold cc0__ffn_block_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hF | exact hS | exact hA)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.KernelIdeal.Hand

end
-- ==== Proof.KernelIdealFrame.lean ====
/-
  The frame of the kernel's program, at any float instance: every weakly fair execution terminates, faults nowhere
  and leaves the three argument arrays as launched.

  What the output's staging buffer and the scratch hold after each of the 64 points is defined by recursion on the
  point: at a row's first hidden block (`j = 0`) what that case's run leaves from the point's input blocks; at a later
  one what the later case's run leaves from the point's input blocks and what the point before left. The region's
  invariant carries the scratch at those contents from point to point, and the output's buffer is found at the point
  before's contents because it is written back only after a row's last hidden block.
-/
import proofs.«128626_g49581102465454_cont_8to1_c_3_2_alg».proof.Proof.KernelIdealRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves, by case -/

/-- What the `j = 0` run's pieces leave in the output's buffer, read back. -/
def firstOut (c : Dev nD) (t : Fin cfg0.N) (h : t.val % 16 = 0)
    (x0 : Vec F S1024x2048 .f32) (x1 : Vec F S512x2048 .f32) (x2 : Vec F S2048x512 .f32) : Vec F S1024x2048 .f32 :=
  VO.read (Elt F) (VO.writes (Elt F) VO.junk
    (runFirst c (grid0.coords t) (ms0 t) (hs0 t) (ms1 t) (hs1 t) (ms2 t) (hs2 t) (ms3 t) (hs3 t) scM (Memref.isWhole_whole _)
      ((hcondFill t).mpr h) ((hcondSet t).mpr h) (fun hh => (hcondAdd t).mp hh h) x0 x1 x2).1)

/-- What the `j = 0` run's pieces leave in the scratch, read back. -/
def firstScr (c : Dev nD) (t : Fin cfg0.N) (h : t.val % 16 = 0)
    (x0 : Vec F S1024x2048 .f32) (x1 : Vec F S512x2048 .f32) (x2 : Vec F S2048x512 .f32) : Vec F S1024x2048 .bf16 :=
  VS.read (Elt F) (VS.writes (Elt F) VS.junk
    (runFirst c (grid0.coords t) (ms0 t) (hs0 t) (ms1 t) (hs1 t) (ms2 t) (hs2 t) (ms3 t) (hs3 t) scM (Memref.isWhole_whole _)
      ((hcondFill t).mpr h) ((hcondSet t).mpr h) (fun hh => (hcondAdd t).mp hh h) x0 x1 x2).2.1)

/-- What the `j ≠ 0` run's pieces leave in the output's buffer, read back. -/
def laterOut (c : Dev nD) (t : Fin cfg0.N) (h : ¬t.val % 16 = 0)
    (x0 : Vec F S1024x2048 .f32) (x1 : Vec F S512x2048 .f32) (x2 : Vec F S2048x512 .f32)
    (xo : Vec F S1024x2048 .f32) (xs : Vec F S1024x2048 .bf16) : Vec F S1024x2048 .f32 :=
  VO.read (Elt F) (VO.writes (Elt F) VO.junk
    (runLater c (grid0.coords t) (ms0 t) (hs0 t) (ms1 t) (hs1 t) (ms2 t) (hs2 t) (ms3 t) (hs3 t) scM (Memref.isWhole_whole _)
      (fun hh => h ((hcondFill t).mp hh)) (fun hh => h ((hcondSet t).mp hh)) ((hcondAdd t).mpr h) x0 x1 x2 xo xs).1)

/-- The `j = 0` run's pieces for the output's buffer tile it. -/
theorem firstOut_cover (c : Dev nD) (t : Fin cfg0.N) (h : t.val % 16 = 0)
    (x0 : Vec F S1024x2048 .f32) (x1 : Vec F S512x2048 .f32) (x2 : Vec F S2048x512 .f32) (y : S1024x2048.Idx) :
    ∃ pc ∈ (runFirst c (grid0.coords t) (ms0 t) (hs0 t) (ms1 t) (hs1 t) (ms2 t) (hs2 t) (ms3 t) (hs3 t) scM (Memref.isWhole_whole _)
      ((hcondFill t).mpr h) ((hcondSet t).mpr h) (fun hh => (hcondAdd t).mp hh h) x0 x1 x2).1, y ∈ pc.1.set :=
  View.cover_of_tiledL _ S1024x2048.size (by sl_kernel_rfl) y

/-- The `j = 0` run's pieces for the scratch tile it. -/
theorem firstScr_cover (c : Dev nD) (t : Fin cfg0.N) (h : t.val % 16 = 0)
    (x0 : Vec F S1024x2048 .f32) (x1 : Vec F S512x2048 .f32) (x2 : Vec F S2048x512 .f32) (y : S1024x2048.Idx) :
    ∃ pc ∈ (runFirst c (grid0.coords t) (ms0 t) (hs0 t) (ms1 t) (hs1 t) (ms2 t) (hs2 t) (ms3 t) (hs3 t) scM (Memref.isWhole_whole _)
      ((hcondFill t).mpr h) ((hcondSet t).mpr h) (fun hh => (hcondAdd t).mp hh h) x0 x1 x2).2.1, y ∈ pc.1.set :=
  View.cover_of_tiledL _ S1024x2048.size (by sl_kernel_rfl) y

/-- The `j ≠ 0` run's pieces for the output's buffer tile it. -/
theorem laterOut_cover (c : Dev nD) (t : Fin cfg0.N) (h : ¬t.val % 16 = 0)
    (x0 : Vec F S1024x2048 .f32) (x1 : Vec F S512x2048 .f32) (x2 : Vec F S2048x512 .f32)
    (xo : Vec F S1024x2048 .f32) (xs : Vec F S1024x2048 .bf16) (y : S1024x2048.Idx) :
    ∃ pc ∈ (runLater c (grid0.coords t) (ms0 t) (hs0 t) (ms1 t) (hs1 t) (ms2 t) (hs2 t) (ms3 t) (hs3 t) scM (Memref.isWhole_whole _)
      (fun hh => h ((hcondFill t).mp hh)) (fun hh => h ((hcondSet t).mp hh)) ((hcondAdd t).mpr h) x0 x1 x2 xo xs).1, y ∈ pc.1.set :=
  View.cover_of_tiledL _ S1024x2048.size (by sl_kernel_rfl) y

/-! ## What the output's buffer and the scratch hold after each point -/

/-- The pair (output's buffer, scratch) after the body at position `n`. -/
def heldAt (c : Dev nD) : (n : ℕ) → n < cfg0.N → Vec F S1024x2048 .f32 × Vec F S1024x2048 .bf16
  | 0, hn => (firstOut c ⟨0, hn⟩ (Nat.zero_mod _) (iblk m c 0 ⟨0, hn⟩) (iblk m c 1 ⟨0, hn⟩) (iblk m c 2 ⟨0, hn⟩),
              firstScr c ⟨0, hn⟩ (Nat.zero_mod _) (iblk m c 0 ⟨0, hn⟩) (iblk m c 1 ⟨0, hn⟩) (iblk m c 2 ⟨0, hn⟩))
  | n + 1, hn =>
    if h : (n + 1) % 16 = 0 then
      (firstOut c ⟨n + 1, hn⟩ h (iblk m c 0 ⟨n + 1, hn⟩) (iblk m c 1 ⟨n + 1, hn⟩) (iblk m c 2 ⟨n + 1, hn⟩),
       firstScr c ⟨n + 1, hn⟩ h (iblk m c 0 ⟨n + 1, hn⟩) (iblk m c 1 ⟨n + 1, hn⟩) (iblk m c 2 ⟨n + 1, hn⟩))
    else
      (laterOut c ⟨n + 1, hn⟩ h (iblk m c 0 ⟨n + 1, hn⟩) (iblk m c 1 ⟨n + 1, hn⟩) (iblk m c 2 ⟨n + 1, hn⟩)
          (heldAt c n (Nat.lt_of_succ_lt hn)).1 (heldAt c n (Nat.lt_of_succ_lt hn)).2,
       (heldAt c n (Nat.lt_of_succ_lt hn)).2)

/-- At a row's first hidden block. -/
theorem heldAt_first (c : Dev nD) (t : Fin cfg0.N) (h : t.val % 16 = 0) :
    heldAt m c t.val t.isLt = (firstOut c t h (iblk m c 0 t) (iblk m c 1 t) (iblk m c 2 t),
                               firstScr c t h (iblk m c 0 t) (iblk m c 1 t) (iblk m c 2 t)) := by
  obtain ⟨n, hn⟩ := t
  cases n with
  | zero => exact rfl
  | succ n => exact (dif_pos h).trans rfl

/-- At a later hidden block: over what the point before left. -/
theorem heldAt_later (c : Dev nD) (t : Fin cfg0.N) (h : ¬t.val % 16 = 0) :
    heldAt m c t.val t.isLt
      = (laterOut c t h (iblk m c 0 t) (iblk m c 1 t) (iblk m c 2 t)
          (heldAt m c (t.val - 1) (Nat.lt_of_le_of_lt (Nat.sub_le _ _) t.isLt)).1
          (heldAt m c (t.val - 1) (Nat.lt_of_le_of_lt (Nat.sub_le _ _) t.isLt)).2,
         (heldAt m c (t.val - 1) (Nat.lt_of_le_of_lt (Nat.sub_le _ _) t.isLt)).2) := by
  obtain ⟨n, hn⟩ := t
  cases n with
  | zero => exact absurd (Nat.zero_mod _) h
  | succ n => exact (dif_neg h).trans rfl

/-! ## The invariant -/

/-- Before position `n`: at the start the region's own invariant (the scratch at anything); afterwards the scratch
    at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((heldAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((heldAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((heldAt m c (n - 1) (by omega)).2)) ∗ (∃ r, prngReg c r)) := by
  cases n with
  | zero => exact absurd rfl hz
  | succ n => rfl

/-! ## The proof data -/

/-- The arrays as the region finds them; after the body each input's buffer at its block and the output's at
    `heldAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (heldAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (heldAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a later hidden block the output's buffer holds what the body left at the point before: the point is not the
    first, the buffer was not written back between (that happens only after `j = 15`), and the window is live and uncut. -/
theorem before3_later (c : Dev nD) (t : Fin cfg0.N) (h : ¬t.val % 16 = 0) (d) :
    (dats m 0 c).before 3 t d = (heldAt m c (t.val - 1) (Nat.lt_of_le_of_lt (Nat.sub_le _ _) t.isLt)).1 := by
  have hN : t.val < 64 := lt_of_lt_of_eq t.isLt (show cfg0.N = 64 from N_0)
  rw [Dat.before_out_kept _ 3 rfl t (by intro h0; rw [h0] at h; exact h (Nat.zero_mod _))
    (Bool.eq_false_iff.mpr fun hf => by have := (flush0_3 _).mp hf; dsimp only at this; omega)
    live3_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; `j` decides the case. At `j = 0` the scratch and
    the output's buffer are handed over at whatever they hold; at `j ≠ 0` at what the point before left. The scratch
    goes back into the invariant at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h : t.val % 16 = 0
  · rw [heldAt_first m c t h]
    unfold firstOut firstScr; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((hcondFill t).mpr h) ((hcondSet t).mpr h) (fun hh => (hcondAdd t).mp hh h)
        (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (firstScr_cover c t h _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (firstOut_cover c t h _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((hcondFill t).mpr h) ((hcondSet t).mpr h) (fun hh => (hcondAdd t).mp hh h)
        (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (firstScr_cover c t h _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (firstOut_cover c t h _ _ _)
  · have hz : t.val ≠ 0 := fun h0 => h (by rw [h0])
    simp only [before3_later m c t h]
    rw [heldAt_later m c t h]
    unfold laterOut; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runLater c (grid0.coords t) _ _ _ _ _ _ _ _ _ _ (fun hh => h ((hcondFill t).mp hh)) (fun hh => h ((hcondSet t).mp hh)) ((hcondAdd t).mpr h)
      (iblk m c 0 t) (iblk m c 1 t) (iblk m c 2 t) _ _).2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (laterOut_cover c t h _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's own back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates; every final state has each array of the pipeline at what the
    library computes from the proof data and every other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KernelIdealPieces.lean ====
/-
  What each run's pieces leave, as the body's own arithmetic.

  At `j = 0` the scratch ends at the stored cast of the `x` block, and the output's buffer at the block product formed
  from the `W1` block, the scratch as just filled and the `W2` block. At `j ≠ 0` the output's buffer ends at what it held
  plus the block product formed from the scratch as the row's first point left it.
-/
import proofs.«128626_g49581102465454_cont_8to1_c_3_2_alg».proof.Proof.KernelIdealFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz : (![0, 0] : Fin 2 → Nat) = fun _ => 0 := funext fun a => by fin_cases a <;> rfl

/-- The scratch after a row's first point: the cast of the `x` block. -/
theorem firstScr_eq (c : Dev nD) (t : Fin cfg0.N) (h : t.val % 16 = 0)
    (x0 : Vec F S1024x2048 .f32) (x1 : Vec F S512x2048 .f32) (x2 : Vec F S2048x512 .f32) :
    firstScr c t h x0 x1 x2 = k0_pay1 x0 := by
  unfold firstScr
  rw [View.read_writes_eq_canon _ _ _ (firstScr_cover c t h x0 x1 x2)]
  unfold runFirst
  dsimp only
  try sl_unfold_words
  rw [View.canon_unit_zero hz]
  simp only [View.readAt_eq_ld, (hs0 t).read_unread, View.ld_unit_zero (S := S1024x2048) hz]

/-- The output's buffer after a row's first point: the block product over the scratch as just filled. -/
theorem firstOut_eq (c : Dev nD) (t : Fin cfg0.N) (h : t.val % 16 = 0)
    (x0 : Vec F S1024x2048 .f32) (x1 : Vec F S512x2048 .f32) (x2 : Vec F S2048x512 .f32) :
    firstOut c t h x0 x1 x2 = k0_pay2 x1 (k0_pay1 x0) x2 := by
  unfold firstOut
  rw [View.read_writes_eq_canon _ _ _ (firstOut_cover c t h x0 x1 x2)]
  unfold runFirst
  dsimp only
  try sl_unfold_words
  rw [View.canon_unit_zero hz]
  simp only [View.readAt_eq_ld, (hs0 t).read_unread, (hs1 t).read_unread, (hs2 t).read_unread,
    View.ld_unit_zero (S := S1024x2048) hz, View.ld_unit_zero (S := S512x2048) hz, View.ld_unit_zero (S := S2048x512) hz,
    View.readCov_unit_zero (S := S1024x2048) _ hz]

/-- The output's buffer after a later point: what it held plus the block product over the carried scratch. -/
theorem laterOut_eq (c : Dev nD) (t : Fin cfg0.N) (h : ¬t.val % 16 = 0)
    (x0 : Vec F S1024x2048 .f32) (x1 : Vec F S512x2048 .f32) (x2 : Vec F S2048x512 .f32)
    (xo : Vec F S1024x2048 .f32) (xs : Vec F S1024x2048 .bf16) :
    laterOut c t h x0 x1 x2 xo xs = k0_pay3 x1 xs x2 xo := by
  unfold laterOut
  rw [View.read_writes_eq_canon _ _ _ (laterOut_cover c t h x0 x1 x2 xo xs)]
  unfold runLater
  dsimp only
  try sl_unfold_words
  rw [View.canon_unit_zero hz]
  simp only [View.readAt_eq_ld, (hs0 t).read_unread, (hs1 t).read_unread, (hs2 t).read_unread, (hs3 t).read_unread,
    (Memref.isWhole_whole cc0_scratch0).read_unread,
    View.ld_unit_zero (S := S1024x2048) hz, View.ld_unit_zero (S := S512x2048) hz, View.ld_unit_zero (S := S2048x512) hz]

end Cert.KernelIdeal.Hand

end
-- ==== Proof.LibRowRowMatmul.lean ====
/-
  A matrix product against a transposed right operand, read at an index, on the extended reals.

  For dimension numbers that contract axis 1 of BOTH operands, keep axis 0 of each as the result's two axes (the left
  operand's first) and have no batch axis — an `[M, K]` array times the transpose of an `[N, K]` array —, the product
  into a zero accumulator has at `(a, v)` the entry `Σ_k lhs[a, k] · rhs[v, k]`, the sum taken over the `K` contraction
  positions in their natural order. The library states the product's entry as a sum over the record's own contraction
  index set, with the operands read at the record's index maps; here those maps are evaluated axis by axis for such a
  record and the sum is re-indexed by the one contraction coordinate.
-/
import Idealize.ShloMosaic.PureOps.Ideal.Laws
import Idealize.ShloMosaic.Lib.ValueIdx

noncomputable section

namespace Cert.RowRowMatmul

open Idealize.ShloMosaic Idealize.ShloMosaic.ValueIdx
open scoped BigOperators

variable {M K N : ℕ} (d : DotDims ⟨2, ![M, K]⟩ ⟨2, ![N, K]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's row coordinate is the result's column coordinate: axis 0 is the right operand's only kept
    axis, and it comes after the left operand's one kept axis among the result's. -/
theorem rhs_row (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[v, k]`. -/
theorem matmul_zero_apply {φ₁ φ₂ : FTy} (hlb : d.lhsBatch = []) (hrb : d.rhsBatch = []) (hln : d.lhsNonContracting = [0])
    (hrn : d.rhsNonContracting = [0]) (hlc : d.lhsContracting = [1]) (hrc : d.rhsContracting = [1])
    (prec : Option ContractPrecision) (lhs : FVec Ideal ⟨2, ![M, K]⟩ φ₁) (rhs : FVec Ideal ⟨2, ![N, K]⟩ φ₂) (a : Fin M) (v : Fin N) :
    matmul d prec lhs rhs (constant ⟨2, ![M, N]⟩ .f32 0x00000000#32) (ix2 a v) = ∑ k : Fin K, lhs (ix2 a k) * rhs (ix2 v k) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 v k := by
    funext ax; apply Fin.ext
    match ax with
    | ⟨0, _⟩ => exact rhs_row d hlb hrb hln hrn _ _
    | ⟨1, _⟩ => exact (d.rhsIdx_val_of_single hrc _ _).trans (contrEquiv1_symm_val d K hr hs k)
  rw [e1, e2]

end Cert.RowRowMatmul

end
-- ==== Proof.Spec.lean ====
/-
  The two-layer feed-forward network on the extended reals, and the one law the certificate rests on.

  For `X : [4096, 2048]`, `W1 : [8192, 2048]`, `W2 : [2048, 8192]` the network's entry at row `r` and column `d` is
  `Σ_f gelu (Σ_k X[r, k] · W1[f, k]) · W2[d, f]`, with `gelu` the tanh form
  `h · (½ · (1 + tanh (s · (h + c · h³))))`, `s` and `c` the binary32 values nearest √(2/π) and 0.044715.
  A sum over the 8192 hidden units taken sixteen blocks of 512 at a time is the same sum: addition of extended reals is
  commutative and associative, and the blocks partition the hidden units.
-/
import Idealize.ShloMosaic.PureOps.Ideal.Laws
import Idealize.ShloMosaic.Lib.ValueIdx
import Mathlib.Algebra.BigOperators.Fin
import Mathlib.Logic.Equiv.Fin.Basic

noncomputable section

namespace Cert.Ffn

open Idealize.ShloMosaic Idealize.ShloMosaic.ValueIdx
open scoped BigOperators

/-- The activation, with the cube associated as `h · (h · h)`. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The same activation with the cube associated as `(h · h) · h`: multiplication of extended reals is commutative. -/
theorem gelu_cube_left (h : EReal) :
    h * (Ideal.ofBits .f32 0x3F000000#32 * (Ideal.ofBits .f32 0x3F800000#32
      + Ideal.tanh (Ideal.ofBits .f32 0x3F4C422A#32 * (h + Ideal.ofBits .f32 0x3D372713#32 * ((h * h) * h))))) = gelu h := by
  unfold gelu; rw [mul_comm (h * h) h]

abbrev Xs : Shape := ⟨2, ![4096, 2048]⟩
abbrev W1s : Shape := ⟨2, ![8192, 2048]⟩
abbrev W2s : Shape := ⟨2, ![2048, 8192]⟩

variable (X : Xs.Idx → EReal) (W1 : W1s.Idx → EReal) (W2 : W2s.Idx → EReal)

/-- The first layer before the activation: `hid[r, f] = Σ_k X[r, k] · W1[f, k]`. -/
def hid (r : Fin 4096) (f : Fin 8192) : EReal := ∑ k : Fin 2048, X (ix2 r k) * W1 (ix2 f k)

/-- The network's entry at `(r, d)`. -/
def ffn (r : Fin 4096) (d : Fin 2048) : EReal := ∑ f : Fin 8192, gelu (hid X W1 r f) * W2 (ix2 d f)

/-- Hidden unit `f` of block `j` (of sixteen blocks of 512); total in `j`, and `512 · j + f` for `j < 16`. -/
def unit (j : ℕ) (f : Fin 512) : Fin 8192 := ⟨(512 * j + f.val) % 8192, Nat.mod_lt _ (by norm_num)⟩

theorem unit_val {j : ℕ} (hj : j < 16) (f : Fin 512) : (unit j f).val = 512 * j + f.val := by
  unfold unit; simp only; exact Nat.mod_eq_of_lt (by omega)

/-- Block `j`'s share of the entry at `(r, d)`. -/
def part (r : Fin 4096) (d : Fin 2048) (j : ℕ) : EReal :=
  ∑ f : Fin 512, gelu (hid X W1 r (unit j f)) * W2 (ix2 d (unit j f))

/-- THE LAW: the sixteen blocks' shares add up to the entry. -/
theorem sum_parts (r : Fin 4096) (d : Fin 2048) :
    ∑ j ∈ Finset.range 16, part X W1 W2 r d j = ffn X W1 W2 r d := by
  unfold ffn part
  rw [Finset.sum_range (fun j => ∑ f : Fin 512, gelu (hid X W1 r (unit j f)) * W2 (ix2 d (unit j f)))]
  rw [← Fintype.sum_prod_type' (fun (j : Fin 16) (f : Fin 512) => gelu (hid X W1 r (unit j.val f)) * W2 (ix2 d (unit j.val f)))]
  refine Fintype.sum_equiv (finProdFinEquiv (m := 16) (n := 512)) _ _ (fun x => ?_)
  have e : unit x.1.val x.2 = finProdFinEquiv (m := 16) (n := 512) x := by
    apply Fin.ext
    rw [unit_val x.1.isLt]
    simp only [finProdFinEquiv_apply_val]
    omega
  rw [e]

/-! ## The network over the batched input -/

abbrev As : Shape := ⟨3, ![2, 2048, 2048]⟩

/-- The `[2, 2048, 2048]` input read as `[4096, 2048]` rows: row `r` is batch `r / 2048`, position `r % 2048`. -/
def rows (A : As.Idx → EReal) : Xs.Idx → EReal := fun j =>
  A (ix3 (⟨(j 0).val / 2048, Nat.div_lt_of_lt_mul (show (j 0).val < 2048 * 2 from (j 0).isLt)⟩ : Fin 2)
         (⟨(j 0).val % 2048, Nat.mod_lt _ (by norm_num)⟩ : Fin 2048)
         (⟨(j 1).val, (j 1).isLt⟩ : Fin 2048))

theorem rows_apply (A : As.Idx → EReal) (b : Fin 2) (s : Fin 2048) (k : Fin 2048) (h : 2048 * b.val + s.val < 4096) :
    rows A (ix2 (⟨2048 * b.val + s.val, h⟩ : Fin 4096) k) = A (ix3 b s k) := by
  unfold rows
  congr 1
  funext a
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-- THE RESULT: entry `(b, s, d)` of the network applied to the batched input. -/
def out (A : As.Idx → EReal) (W1 : W1s.Idx → EReal) (W2 : W2s.Idx → EReal) : As.Idx → EReal := fun i =>
  ffn (rows A) W1 W2
    (⟨2048 * (i 0).val + (i 1).val, by
      have h0 : (i 0).val < 2 := (i 0).isLt
      have h1 : (i 1).val < 2048 := (i 1).isLt
      omega⟩ : Fin 4096)
    (⟨(i 2).val, (i 2).isLt⟩ : Fin 2048)

end Cert.Ffn

end
-- ==== Proof.KernelPay.lean ====
/-
  The kernel body's three stored values, read at an index on the extended reals.

  The scratch receives the row block of `x` (a change of float format is the identity). The block product is, at
  `(p, d)`, `Σ_f gelu (Σ_k xs[p, k] · w1[f, k]) · w2[d, f]` over the block's 512 hidden units: both matrix products
  contract the second axis of both operands into a zero accumulator. The accumulation adds the block product to what
  the output's buffer held.
-/
import proofs.«128626_g49581102465454_cont_8to1_c_3_2_alg».proof.Proof.Gen.KernelIdeal.Skeleton
import proofs.«128626_g49581102465454_cont_8to1_c_3_2_alg».proof.Proof.LibRowRowMatmul
import proofs.«128626_g49581102465454_cont_8to1_c_3_2_alg».proof.Proof.Spec
import Idealize.ShloMosaic.Lib.Pipeline.Value
import Idealize.ShloMosaic.Lib.ValueIdx

noncomputable section

namespace Cert.KernelIdeal.Pay

open Idealize.ShloMosaic Idealize.ShloMosaic.ValueIdx Cert.KernelIdeal Cert.KernelIdeal.Gen
open scoped BigOperators

/-- The value stored into the scratch is the loaded block. -/
theorem fill_apply (v30 : Vec Ideal S1024x2048 .f32) (y : S1024x2048.Idx) : k0_pay1 (F := Ideal) v30 y = v30 y := by
  unfold k0_pay1
  rw [shapeCast_self, shapeCast_self]
  rfl

/-- The block product at `(p, d)`. -/
theorem prod_apply (v3 : Vec Ideal S512x2048 .f32) (v5 : Vec Ideal S1024x2048 .bf16) (v21 : Vec Ideal S2048x512 .f32)
    (p : Fin 1024) (d : Fin 2048) :
    k0_pay2 (F := Ideal) v3 v5 v21 (ix2 p d)
      = ∑ f : Fin 512, Cert.Ffn.gelu (∑ k : Fin 2048, v5 (ix2 p k) * v3 (ix2 f k)) * v21 (ix2 d f) := by
  unfold k0_pay2
  rw [Cert.RowRowMatmul.matmul_zero_apply dot_S1024x512_S2048x512_S1024x2048_1_1_0_0_n_n rfl rfl rfl rfl rfl rfl]
  refine Finset.sum_congr rfl fun f _ => ?_
  have h6 := Cert.RowRowMatmul.matmul_zero_apply (φ₁ := .bf16) (φ₂ := .bf16) dot_S1024x2048_S512x2048_S1024x512_1_1_0_0_n_n rfl rfl rfl rfl rfl rfl none v5
    (truncf .bf16 v3 bitsLt_bf16_f32) p f
  show _ = Cert.Ffn.gelu (∑ k : Fin 2048, v5 (ix2 p k) * (truncf .bf16 v3 bitsLt_bf16_f32 : FVec Ideal S512x2048 .bf16) (ix2 f k)) * v21 (ix2 d f)
  rw [← h6]
  rfl

/-- The accumulation: what the buffer held plus the block product. -/
theorem acc_apply (v3 : Vec Ideal S512x2048 .f32) (v5 : Vec Ideal S1024x2048 .bf16) (v21 : Vec Ideal S2048x512 .f32)
    (v30 : Vec Ideal S1024x2048 .f32) (y : S1024x2048.Idx) :
    k0_pay3 (F := Ideal) v3 v5 v21 v30 y = v30 y + k0_pay2 (F := Ideal) v3 v5 v21 y := by
  unfold k0_pay3
  rw [shapeCast_self]
  rfl

end Cert.KernelIdeal.Pay

end
-- ==== Proof.KernelValue.lean ====
/-
  What the idealized kernel's program computes: its result array ends at the network of Spec.lean applied to the
  arguments, and the arguments end unchanged.

  Grid point `t` is row block `t / 16`, hidden block `t % 16`. The `x` window's block at `t` is rows
  `1024 (t / 16) …` of the flattened input, the `W1` window's is rows `512 (t % 16) …` of `W1`, the `W2` window's is
  columns `512 (t % 16) …` of `W2`. By induction on the point, after point `t` the scratch holds the row block of the
  flattened input and the output's staging buffer holds, at `(p, d)`, the shares of hidden blocks `0 … t % 16` of the
  network's entry at row `1024 (t / 16) + p`, column `d`. The buffer is written back after hidden block 15, when the
  shares are all sixteen: the entry itself. The row blocks tile the output array, and the reshapes before and after the
  region read the batched input as rows and the rows as the batched result.
-/
import proofs.«128626_g49581102465454_cont_8to1_c_3_2_alg».proof.Proof.KernelIdealPieces
import proofs.«128626_g49581102465454_cont_8to1_c_3_2_alg».proof.Proof.KernelPay
import proofs.«128626_g49581102465454_cont_8to1_c_3_2_alg».proof.Proof.Spec
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open scoped BigOperators

variable (m : (ℓ : Loc nD τ sig) → Buf (Elt Ideal) ℓ) (ρ : Dev nD → PrngReg)

/-! ## The arrays the region finds, and the windows' blocks as their entries -/

/-- The flattened input, `W1` and `W2` as the region finds them. -/
abbrev Xarr (c : Dev nD) : Cert.Ffn.Xs.Idx → EReal := V m c main_v0
abbrev W1arr (c : Dev nD) : Cert.Ffn.W1s.Idx → EReal := V m c main_arg1
abbrev W2arr (c : Dev nD) : Cert.Ffn.W2s.Idx → EReal := V m c main_arg2

/-- The blocks at a point, at their literal types. -/
abbrev xblk (c : Dev nD) (t : Fin cfg0.N) : Vec Ideal S1024x2048 .f32 := iblk m c 0 t
abbrev w1blk (c : Dev nD) (t : Fin cfg0.N) : Vec Ideal S512x2048 .f32 := iblk m c 1 t
abbrev w2blk (c : Dev nD) (t : Fin cfg0.N) : Vec Ideal S2048x512 .f32 := iblk m c 2 t

/-- Row `p` of row block `i`; total in `i`, and `1024 · i + p` for `i < 4`. -/
def rowAt (i : ℕ) (p : Fin 1024) : Fin 4096 := ⟨(1024 * i + p.val) % 4096, Nat.mod_lt _ (by norm_num)⟩

/-- The printed index maps over the 64 points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = t.val / 16 ∧ win0_3.index t (1 : Fin 2) = 0 :=
  (by decide +kernel : ∀ t : Fin grid0.N, _)

theorem lt64 (t : Fin cfg0.N) : t.val < 64 := lt_of_lt_of_eq t.isLt (show cfg0.N = 64 from N_0)

theorem xblk_apply (c : Dev nD) (t : Fin cfg0.N) (p : Fin 1024) (k : Fin 2048) :
    xblk m c t (ix2 p k) = Xarr m c (ix2 (rowAt (t.val / 16) p) k) := by
  obtain ⟨e0, e1, -⟩ := idx_facts t
  have hN := lt64 t
  show iblk m c 0 t (ix2 p k) = _
  unfold iblk
  rw [View.read_apply]
  show V m c main_v0 _ = V m c main_v0 _
  congr 1
  funext a
  apply Fin.ext
  match a with
  | ⟨0, _⟩ => show win0_0.index t (0 : Fin 2) * 1024 + 1 * p.val = (1024 * (t.val / 16) + p.val) % 4096; rw [e0]; omega
  | ⟨1, _⟩ => show win0_0.index t (1 : Fin 2) * 2048 + 1 * k.val = k.val; rw [e1]; omega

theorem w1blk_apply (c : Dev nD) (t : Fin cfg0.N) (f : Fin 512) (k : Fin 2048) :
    w1blk m c t (ix2 f k) = W1arr m c (ix2 (Cert.Ffn.unit (t.val % 16) f) k) := by
  obtain ⟨-, -, e2, e3, -⟩ := idx_facts t
  have hN := lt64 t
  show iblk m c 1 t (ix2 f k) = _
  unfold iblk
  rw [View.read_apply]
  show V m c main_arg1 _ = V m c main_arg1 _
  congr 1
  funext a
  apply Fin.ext
  match a with
  | ⟨0, _⟩ => show win0_1.index t (0 : Fin 2) * 512 + 1 * f.val = (512 * (t.val % 16) + f.val) % 8192; rw [e2]; omega
  | ⟨1, _⟩ => show win0_1.index t (1 : Fin 2) * 2048 + 1 * k.val = k.val; rw [e3]; omega

theorem w2blk_apply (c : Dev nD) (t : Fin cfg0.N) (d : Fin 2048) (f : Fin 512) :
    w2blk m c t (ix2 d f) = W2arr m c (ix2 d (Cert.Ffn.unit (t.val % 16) f)) := by
  obtain ⟨-, -, -, -, e4, e5, -⟩ := idx_facts t
  have hN := lt64 t
  show iblk m c 2 t (ix2 d f) = _
  unfold iblk
  rw [View.read_apply]
  show V m c main_arg2 _ = V m c main_arg2 _
  congr 1
  funext a
  apply Fin.ext
  match a with
  | ⟨0, _⟩ => show win0_2.index t (0 : Fin 2) * 2048 + 1 * d.val = d.val; rw [e4]; omega
  | ⟨1, _⟩ => show win0_2.index t (1 : Fin 2) * 512 + 1 * f.val = (512 * (t.val % 16) + f.val) % 8192; rw [e5]; omega

/-! ## One block product is one hidden block's share -/

/-- With the scratch at the row block of the flattened input, the block product at `(p, d)` is hidden block
    `t % 16`'s share of the network's entry at row `1024 (t / 16) + p`, column `d`. -/
theorem prod_is_part (c : Dev nD) (t : Fin cfg0.N) (xs : Vec Ideal S1024x2048 .bf16)
    (hxs : ∀ (p : Fin 1024) (k : Fin 2048), xs (ix2 p k) = Xarr m c (ix2 (rowAt (t.val / 16) p) k))
    (p : Fin 1024) (d : Fin 2048) :
    k0_pay2 (F := Ideal) (w1blk m c t) xs (w2blk m c t) (ix2 p d)
      = Cert.Ffn.part (Xarr m c) (W1arr m c) (W2arr m c) (rowAt (t.val / 16) p) d (t.val % 16) := by
  refine (Cert.KernelIdeal.Pay.prod_apply (w1blk m c t) xs (w2blk m c t) p d).trans ?_
  unfold Cert.Ffn.part Cert.Ffn.hid
  refine Finset.sum_congr rfl fun f _ => ?_
  rw [w2blk_apply m c t d f]
  congr 1
  refine congrArg Cert.Ffn.gelu (Finset.sum_congr rfl fun k _ => ?_)
  rw [hxs p k, w1blk_apply m c t f k]

/-! ## What the scratch and the output's buffer hold after each point -/

/-- After point `n` the scratch holds row block `n / 16` of the flattened input. -/
def ScrInv (c : Dev nD) (n : ℕ) (hn : n < cfg0.N) : Prop :=
  ∀ (p : Fin 1024) (k : Fin 2048), (heldAt m c n hn).2 (ix2 p k) = Xarr m c (ix2 (rowAt (n / 16) p) k)

/-- After point `n` the output's buffer holds the shares of hidden blocks `0 … n % 16`. -/
def OutInv (c : Dev nD) (n : ℕ) (hn : n < cfg0.N) : Prop :=
  ∀ (p : Fin 1024) (d : Fin 2048), (heldAt m c n hn).1 (ix2 p d)
    = ∑ j ∈ Finset.range (n % 16 + 1), Cert.Ffn.part (Xarr m c) (W1arr m c) (W2arr m c) (rowAt (n / 16) p) d j

/-- The pair at a row's first point, as the body's arithmetic of the point's blocks. -/
theorem held_first (c : Dev nD) (t : Fin cfg0.N) (h : t.val % 16 = 0) :
    heldAt m c t.val t.isLt
      = (k0_pay2 (F := Ideal) (w1blk m c t) (k0_pay1 (F := Ideal) (xblk m c t)) (w2blk m c t), k0_pay1 (F := Ideal) (xblk m c t)) := by
  rw [heldAt_first m c t h, firstOut_eq c t h (iblk m c 0 t) (iblk m c 1 t) (iblk m c 2 t),
    firstScr_eq c t h (iblk m c 0 t) (iblk m c 1 t) (iblk m c 2 t)]

/-- The pair at a later point, over the pair at the point before. -/
theorem held_later (c : Dev nD) (t : Fin cfg0.N) (h : ¬t.val % 16 = 0) :
    heldAt m c t.val t.isLt
      = (k0_pay3 (F := Ideal) (w1blk m c t) (heldAt m c (t.val - 1) (Nat.lt_of_le_of_lt (Nat.sub_le _ _) t.isLt)).2 (w2blk m c t)
            (heldAt m c (t.val - 1) (Nat.lt_of_le_of_lt (Nat.sub_le _ _) t.isLt)).1,
         (heldAt m c (t.val - 1) (Nat.lt_of_le_of_lt (Nat.sub_le _ _) t.isLt)).2) := by
  rw [heldAt_later m c t h, laterOut_eq c t h (iblk m c 0 t) (iblk m c 1 t) (iblk m c 2 t)
    (heldAt m c (t.val - 1) (Nat.lt_of_le_of_lt (Nat.sub_le _ _) t.isLt)).1
    (heldAt m c (t.val - 1) (Nat.lt_of_le_of_lt (Nat.sub_le _ _) t.isLt)).2]

/-- At a row's first point. -/
theorem inv_first (c : Dev nD) (t : Fin cfg0.N) (h : t.val % 16 = 0) :
    ScrInv m c t.val t.isLt ∧ OutInv m c t.val t.isLt := by
  have e := held_first m c t h
  have hfill : ∀ (p : Fin 1024) (k : Fin 2048),
      k0_pay1 (F := Ideal) (xblk m c t) (ix2 p k) = Xarr m c (ix2 (rowAt (t.val / 16) p) k) := fun p k =>
    (Cert.KernelIdeal.Pay.fill_apply (xblk m c t) (ix2 p k)).trans (xblk_apply m c t p k)
  constructor
  · intro p k
    rw [e]
    dsimp only
    exact hfill p k
  · intro p d
    rw [e]
    dsimp only
    have e2 := prod_is_part m c t (k0_pay1 (F := Ideal) (xblk m c t)) hfill p d
    rw [h] at e2
    rw [h, Finset.sum_range_one]
    exact e2

/-- At a later point, from the point before. -/
theorem inv_later (c : Dev nD) (t : Fin cfg0.N) (h : ¬t.val % 16 = 0)
    (ihs : ScrInv m c (t.val - 1) (Nat.lt_of_le_of_lt (Nat.sub_le _ _) t.isLt))
    (iho : OutInv m c (t.val - 1) (Nat.lt_of_le_of_lt (Nat.sub_le _ _) t.isLt)) :
    ScrInv m c t.val t.isLt ∧ OutInv m c t.val t.isLt := by
  have hdiv : (t.val - 1) / 16 = t.val / 16 := by omega
  have hmod : (t.val - 1) % 16 + 1 = t.val % 16 := by omega
  have e := held_later m c t h
  have hs : ∀ (p : Fin 1024) (k : Fin 2048),
      (heldAt m c (t.val - 1) (Nat.lt_of_le_of_lt (Nat.sub_le _ _) t.isLt)).2 (ix2 p k) = Xarr m c (ix2 (rowAt (t.val / 16) p) k) :=
    fun p k => by rw [ihs p k, hdiv]
  constructor
  · intro p k
    rw [e]
    dsimp only
    exact hs p k
  · intro p d
    rw [e]
    dsimp only
    refine (Cert.KernelIdeal.Pay.acc_apply (w1blk m c t) _ (w2blk m c t) _ (ix2 p d)).trans ?_
    rw [iho p d, hdiv, hmod, prod_is_part m c t _ hs p d]
    exact (Finset.sum_range_succ _ _).symm

/-- Both invariants at every point. -/
theorem inv_all (c : Dev nD) : ∀ (n : ℕ) (hn : n < cfg0.N), ScrInv m c n hn ∧ OutInv m c n hn := by
  intro n
  induction n with
  | zero => intro hn; exact inv_first m c ⟨0, hn⟩ (Nat.zero_mod _)
  | succ n ih =>
    intro hn
    by_cases h : (n + 1) % 16 = 0
    · exact inv_first m c ⟨n + 1, hn⟩ h
    · exact inv_later m c ⟨n + 1, hn⟩ h (ih (Nat.lt_of_succ_lt hn)).1 (ih (Nat.lt_of_succ_lt hn)).2

/-! ## The output array after the region -/

/-- The `[4096, 2048]` array the region's output ends at: the network over the flattened input. -/
def mid (c : Dev nD) : Cert.Ffn.Xs.Idx → EReal := fun i =>
  Cert.Ffn.ffn (Xarr m c) (W1arr m c) (W2arr m c) (⟨(i 0).val, (i 0).isLt⟩ : Fin 4096) (⟨(i 1).val, (i 1).isLt⟩ : Fin 2048)

/-- What a write-back writes is its block of `mid`. -/
theorem flushed_eq (c : Dev nD) (t : Fin cfg0.N) (hf : (cfg0.win 3).flush t = true) :
    (dats m 0 c).flushed 3 t = ((cfg0.win 3).blk t).view.read (Elt Ideal) (mid m c) := by
  have h15 : t.val % 16 = 15 := (flush0_3 t).mp hf
  obtain ⟨-, -, -, -, -, -, e6, e7⟩ := idx_facts t
  have hN := lt64 t
  show (cfg0.win 3).cut (grid0.coords t) ((dats m 0 c).after 3 t) = _
  rw [after3]
  funext j
  obtain ⟨p, d, rfl⟩ : ∃ (p : Fin 1024) (d : Fin 2048), j = ix2 p d := ⟨j 0, j 1, eq_ix2 j⟩
  show (heldAt m c t.val t.isLt).1 (ix2 p d) = mid m c (((cfg0.win 3).blk t).view.emb (ix2 p d))
  rw [(inv_all m c t.val t.isLt).2 p d, h15, Cert.Ffn.sum_parts]
  unfold mid
  congr 1
  · apply Fin.ext
    show (1024 * (t.val / 16) + p.val) % 4096 = win0_3.index t (0 : Fin 2) * 1024 + 1 * p.val
    rw [e6]; omega
  · apply Fin.ext
    show d.val = win0_3.index t (1 : Fin 2) * 2048 + 1 * d.val
    rw [e7]; omega

/-- The write-backs' blocks cover the output array: row `r` lies in row block `r / 1024`, written back at that
    row block's last point. -/
theorem covered (c : Dev nD) (i : Cert.Ffn.Xs.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 64 := N_0
  let t : Fin cfg0.N := ⟨16 * ((i 0).val / 1024) + 15, by rw [hN]; omega⟩
  have htv : t.val = 16 * ((i 0).val / 1024) + 15 := rfl
  obtain ⟨-, -, -, -, -, -, e6, e7⟩ := idx_facts t
  refine ⟨t, (flush0_3 t).mpr (by rw [htv]; omega), ?_⟩
  show i ∈ ((View.whole main_v1).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e6, htv]; omega
  | ⟨1, _⟩ =>
    show win0_3.index t (1 : Fin 2) * 2048 ≤ (i 1).val ∧ (i 1).val < win0_3.index t (1 : Fin 2) * 2048 + 2048
    rw [e7]; omega

/-- The output array after the region. -/
theorem final_mid (c : Dev nD) : (dats m 0 c).arrAt 3 cfg0.N = mid m c :=
  (dats m 0 c).arrAt_eq_of_cover 3 (mid m c) (flushed_eq m c) (covered c)

/-! ## The reshapes around the region -/

/-- The region finds the batched input flattened to rows. -/
theorem Xarr_eq (c : Dev nD) : Xarr m c = Cert.Ffn.rows (m ((c : Thread nD τ).loc main_arg0)) := by
  have e : (V m c main_v0 : S4096x2048.Idx → EReal)
      = shapeCast S4096x2048 (m ((c : Thread nD τ).loc main_arg0)) shapeCasts_S2x2048x2048_S4096x2048 := by
    show StableHlo.after hostOps0 (fun b => m (c, b)) (Proc.devRef .tc main_v0) = _
    after_results
    rfl
  show (V m c main_v0 : S4096x2048.Idx → EReal) = _
  rw [e]
  funext j
  unfold Cert.Ffn.rows
  refine shapeCast_apply (s := S2x2048x2048) (t := S4096x2048) _ _ j _ ?_
  show ((⟨3, ![2, 2048, 2048]⟩ : Shape).rowMajor _).val = ((⟨2, ![4096, 2048]⟩ : Shape).rowMajor j).val
  rw [Shape.rowMajor_val_three, Shape.rowMajor_val_two]
  have h0 : (j 0).val < 4096 := (j 0).isLt
  show ((j 0).val / 2048 * 2048 + (j 0).val % 2048) * 2048 + (j 1).val = (j 0).val * 2048 + (j 1).val
  omega

theorem W1arr_eq (c : Dev nD) : W1arr m c = m ((c : Thread nD τ).loc main_arg1) := V_main_arg1 m c
theorem W2arr_eq (c : Dev nD) : W2arr m c = m ((c : Thread nD τ).loc main_arg2) := V_main_arg2 m c

/-- The result array after the reshape that follows the region: the network applied to the batched input. -/
theorem result_eq (c : Dev nD) :
    Pipeline.afterTail₀ cfgs (dats m) 0 (V0 m) [hostOps1] c main_v2
      = Cert.Ffn.out (m ((c : Thread nD τ).loc main_arg0)) (m ((c : Thread nD τ).loc main_arg1)) (m ((c : Thread nD τ).loc main_arg2)) := by
  have e : Pipeline.afterTail₀ cfgs (dats m) 0 (V0 m) [hostOps1] c main_v2
      = shapeCast S2x2048x2048 (mid m c) shapeCasts_S4096x2048_S2x2048x2048 := by
    unfold Pipeline.afterTail₀
    show StableHlo.after hostOps1 _ (Proc.devRef .tc main_v2) = _
    after_results
    have hw : Pipeline.withArrays (cfgs 0).spec c (V0 m c) (fun w => (dats m 0 c).arrAt w (cfgs 0).N) (Proc.devRef .tc main_v1)
        = mid m c := (Pipeline.withArrays_arr spec0 launch0.win.arr_inj c _ _ 3).trans (final_mid m c)
    rw [hw]
    rfl
  rw [e]
  funext i
  unfold Cert.Ffn.out
  rw [← Xarr_eq m c, ← W1arr_eq m c, ← W2arr_eq m c]
  have h0 : (i 0).val < 2 := (i 0).isLt
  have h1 : (i 1).val < 2048 := (i 1).isLt
  refine (shapeCast_apply (s := S4096x2048) (t := S2x2048x2048) (mid m c) _ i (ix2 (⟨2048 * (i 0).val + (i 1).val, by omega⟩ : Fin 4096) (⟨(i 2).val, (i 2).isLt⟩ : Fin 2048)) ?_).trans rfl
  show ((⟨2, ![4096, 2048]⟩ : Shape).rowMajor _).val = ((⟨3, ![2, 2048, 2048]⟩ : Shape).rowMajor i).val
  rw [Shape.rowMajor_val_three, Shape.rowMajor_val_two]
  show (2048 * (i 0).val + (i 1).val) * 2048 + (i 2).val = ((i 0).val * 2048 + (i 1).val) * 2048 + (i 2).val
  omega

/-! ## The run, read -/

/-- Every weakly fair execution of the idealized kernel's program terminates with the result array at the network
    applied to the arguments, and the arguments as launched. -/
theorem run : θ_run defs (onTc (τ := τ) (main (F := Ideal))) ⟨m, fun _ => 0, ρ⟩ fun r => ∀ c : Dev nD,
      r.2.mem ((c.tc : Thread nD τ).loc main_v2)
        = Cert.Ffn.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.Val

end
-- ==== Proof.RefValue.lean ====
/-
  The reference's result, index by index, is the network of Spec.lean.

  The reference contracts the batched input against `W1` (entry `(b, s, f)` is `Σ_k A[b, s, k] · W1[f, k]`), applies the
  activation operation by operation — with the cube associated to the left — and contracts against `W2` over all 8192
  hidden units. Row `2048 · b + s` of the flattened input is `A[b, s, ·]`.
-/
import proofs.«128626_g49581102465454_cont_8to1_c_3_2_alg».proof.Proof.Gen.ReferenceIdeal.Read
import proofs.«128626_g49581102465454_cont_8to1_c_3_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read
open scoped BigOperators

/-- The row of the flattened input that entry `(b, s, ·)` of a three-axis index names. -/
def rowOf {n : ℕ} (i : (⟨3, ![2, 2048, n]⟩ : Shape).Idx) : Fin 4096 :=
  ⟨2048 * (i 0).val + (i 1).val, by
    have h0 : (i 0).val < 2 := (i 0).isLt
    have h1 : (i 1).val < 2048 := (i 1).isLt
    omega⟩

/-- The first contraction is the network's first layer. -/
theorem hid_apply (A : (⟨S2x2048x2048, .f32⟩ : BufTy).Contents (Elt Ideal)) (W1 : (⟨S8192x2048, .f32⟩ : BufTy).Contents (Elt Ideal))
    (i : S2x2048x8192.Idx) :
    val_main_v0 (F := Ideal) A W1 i = Cert.Ffn.hid (Cert.Ffn.rows A) W1 (rowOf i) ⟨(i 2).val, (i 2).isLt⟩ := by
  rw [val_main_v0_apply]
  unfold Cert.Ffn.hid rowOf
  refine Finset.sum_congr rfl fun k _ => ?_
  rw [Cert.Ffn.rows_apply A ⟨(i 0).val, (i 0).isLt⟩ ⟨(i 1).val, (i 1).isLt⟩ k]
  congr 1
  · exact congrArg A (funext fun a => by
      match a with
      | ⟨0, _⟩ => rfl
      | ⟨1, _⟩ => rfl
      | ⟨2, _⟩ => rfl)
  · exact congrArg W1 (funext fun a => by
      match a with
      | ⟨0, _⟩ => rfl
      | ⟨1, _⟩ => rfl)

/-- The operations between the two contractions are the activation. -/
theorem act_apply (A : (⟨S2x2048x2048, .f32⟩ : BufTy).Contents (Elt Ideal)) (W1 : (⟨S8192x2048, .f32⟩ : BufTy).Contents (Elt Ideal))
    (i : S2x2048x8192.Idx) :
    val_main_v13 (F := Ideal) A W1 i = Cert.Ffn.gelu (val_main_v0 (F := Ideal) A W1 i) := by
  rw [← Cert.Ffn.gelu_cube_left]
  rw [val_main_v13_apply, val_main_v12_apply, val_main_v11_apply, val_main_cst_2_apply, val_main_v10_apply,
    val_main_v9_apply, val_main_cst_1_apply, val_main_v8_apply, val_main_v7_apply, val_main_v6_apply,
    val_main_cst_0_apply, val_main_v5_apply, val_main_v4_apply, val_main_v3_apply, val_main_cst_apply,
    val_main_v2_apply, val_main_v1_apply]
  rfl

/-- THE REFERENCE'S RESULT is the network applied to the batched input. -/
theorem ref_eq (A : (⟨S2x2048x2048, .f32⟩ : BufTy).Contents (Elt Ideal)) (W1 : (⟨S8192x2048, .f32⟩ : BufTy).Contents (Elt Ideal))
    (W2 : (⟨S2048x8192, .f32⟩ : BufTy).Contents (Elt Ideal)) :
    val_main_v14 (F := Ideal) A W1 W2 = Cert.Ffn.out A W1 W2 := by
  funext i
  rw [val_main_v14_apply]
  unfold Cert.Ffn.out Cert.Ffn.ffn
  refine Finset.sum_congr rfl fun f _ => ?_
  rw [act_apply, hid_apply]
  congr 1
  exact congrArg W2 (funext fun a => by
    match a with
    | ⟨0, _⟩ => rfl
    | ⟨1, _⟩ => rfl)

end Cert.ReferenceIdeal.RefValue

end
-- ==== Proof.lean ====
/-
  The certificate of the fused feed-forward kernel against its reference.

  The kernel computes `gelu (x · W1ᵀ) · W2ᵀ` a block of 1024 rows and a block of 512 hidden units at a time, adding the
  hidden blocks' shares into one accumulator per row block; the reference computes the two contractions whole. On the
  extended reals a change of float format is the identity and a sum does not depend on how it is grouped, so both
  programs end at the same array (Spec.lean's `out`): the kernel's by induction over the grid points (KernelValue.lean),
  the reference's operation by operation (RefValue.lean). The three programs' frames: the two kernel programs' from the
  body run at each of its two cases (KernelFrame.lean, KernelIdealFrame.lean), the reference's from its run. The ideal
  pass rewrote nothing, so the kernel's idealization is its own text and that conjunct asks nothing.
-/
import proofs.«128626_g49581102465454_cont_8to1_c_3_2_alg».proof.Defs
import proofs.«128626_g49581102465454_cont_8to1_c_3_2_alg».proof.Proof.Gen.Kernel
import proofs.«128626_g49581102465454_cont_8to1_c_3_2_alg».proof.Proof.Gen.KernelIdeal
import proofs.«128626_g49581102465454_cont_8to1_c_3_2_alg».proof.Proof.Gen.ReferenceIdeal
import proofs.«128626_g49581102465454_cont_8to1_c_3_2_alg».proof.Proof.Gen.Pre_finite_inputs
import proofs.«128626_g49581102465454_cont_8to1_c_3_2_alg».proof.Proof.Gen.ReferenceIdeal.Run
import proofs.«128626_g49581102465454_cont_8to1_c_3_2_alg».proof.Proof.KernelFrame
import proofs.«128626_g49581102465454_cont_8to1_c_3_2_alg».proof.Proof.KernelValue
import proofs.«128626_g49581102465454_cont_8to1_c_3_2_alg».proof.Proof.RefValue

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end at the network applied to the arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
